-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S1x16384, .f32⟩
  | .hbm, ⟨4, _⟩ => ⟨S8192x16384, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x4096.size a
  hwx0_1 : ∀ i : grid0.Coords, EltTy.bits .f32 = 32 ∨ (Rect.block (s := S16384x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x16384.size a
  hwx0_3 : ∀ i : grid0.Coords, EltTy.bits .f32 = 32 ∨ (Rect.block (s := S8192x16384) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S4096x16384 : Shape := ⟨2, ![4096, 16384]⟩
abbrev S8192x16384 : Shape := ⟨2, ![8192, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4096x16384, .f32⟩
  | .hbm, ⟨4, _⟩ => ⟨S8192x16384, .f32⟩
  | .hbm, ⟨5, _⟩ => ⟨S1x16384, .f32⟩
  | .hbm, ⟨6, _⟩ => ⟨S8192x16384, .f32⟩
  | .hbm, ⟨7, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16384x4096_S4096x16384_1_0 : S16384x4096.Transposes [1, 0] S4096x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.Affine.lean ====
/-
  The affine map  y[r, q] = (Σ_k x[r, k] · w[q, k]) + b[q]  over the extended reals, as ONE function of the three argument
  arrays, and the way an accumulation along the contracted axis reaches it: the 4096 contracted positions fall into 8 slabs
  of 512 consecutive ones, a slab's contribution is the sum of its 512 products, and the 8 contributions add up to the full
  sum.  Only commutativity and associativity of the addition are used, so nothing here asks the entries to be finite.
  Rows, columns and contracted positions of a tile are written from the position of the grid point in the run: point `n`
  (of 8 · 8 · 8, the contracted axis moving fastest) works on row tile `n / 64`, column tile `(n / 8) % 8` and slab `n % 8`.
-/
import Idealize.ShloMosaic.PureOps.Ideal
import Idealize.ShloMosaic.Lib.ValueIdx
import proofs.«127328_j84902913507492_1_alg».proof.Proof.LibFinSum

noncomputable section

open scoped BigOperators

namespace Cert.Affine

open Idealize.ShloMosaic Idealize.ShloMosaic.ValueIdx

/-- The shape of `x`: 8192 rows of 4096 entries. -/
abbrev XS : Shape := ⟨2, ![8192, 4096]⟩
/-- The shape of `w`: 16384 rows of 4096 entries. -/
abbrev WS : Shape := ⟨2, ![16384, 4096]⟩
/-- The shape of `b`: 16384 entries. -/
abbrev BS : Shape := ⟨1, ![16384]⟩
/-- The shape of the result: 8192 rows of 16384 entries. -/
abbrev YS : Shape := ⟨2, ![8192, 16384]⟩

/-- The affine map, index by index: row `r` of `x` against row `q` of `w`, plus `b` at `q`. -/
def affine (x : XS.Idx → EReal) (w : WS.Idx → EReal) (b : BS.Idx → EReal) : YS.Idx → EReal :=
  fun i => (∑ k : Fin 4096, x (ix2 (i 0) k) * w (ix2 (i 1) k)) + b (ix1 (i 1))

/-- Position `kk` of slab `kb` among the 4096 contracted positions (for `kb < 8` it is `kb * 512 + kk`). -/
def slabPos (kb : ℕ) (kk : Fin 512) : Fin 4096 := ⟨(kb * 512 + kk.val) % 4096, Nat.mod_lt _ (by norm_num)⟩

theorem slabPos_val (kb : ℕ) (hkb : kb < 8) (kk : Fin 512) : (slabPos kb kk).val = kb * 512 + kk.val := by
  have := kk.isLt
  show (kb * 512 + kk.val) % 4096 = _
  omega

/-- Slab `kb`'s contribution to entry `(r, q)`: its 512 products summed. -/
def slab (x : XS.Idx → EReal) (w : WS.Idx → EReal) (r : Fin 8192) (q : Fin 16384) (kb : ℕ) : EReal :=
  ∑ kk : Fin 512, x (ix2 r (slabPos kb kk)) * w (ix2 q (slabPos kb kk))

/-- The 8 slabs' contributions add up to the full contraction. -/
theorem sum_slabs (x : XS.Idx → EReal) (w : WS.Idx → EReal) (r : Fin 8192) (q : Fin 16384) :
    ∑ kb ∈ Finset.range 8, slab x w r q kb = ∑ k : Fin 4096, x (ix2 r k) * w (ix2 q k) := by
  rw [Cert.LibFinSum.sum_fin_of_eq_mul 8 512 (by norm_num) (fun k : Fin 4096 => x (ix2 r k) * w (ix2 q k)), Finset.sum_range]
  refine Finset.sum_congr rfl fun kb _ => ?_
  unfold slab
  refine Finset.sum_congr rfl fun kk _ => ?_
  have e : slabPos kb.val kk = ⟨kb.val * 512 + kk.val, by have := kb.isLt; have := kk.isLt; omega⟩ :=
    Fin.ext (slabPos_val kb.val kb.isLt kk)
  rw [e]

/-- Row `p` of the row tile that point `n` works on. -/
def tileRow (n : ℕ) (p : Fin 1024) : Fin 8192 := ⟨((n / 64) * 1024 + p.val) % 8192, Nat.mod_lt _ (by norm_num)⟩
/-- Column `q` of the column tile that point `n` works on. -/
def tileCol (n : ℕ) (q : Fin 2048) : Fin 16384 := ⟨(((n / 8) % 8) * 2048 + q.val) % 16384, Nat.mod_lt _ (by norm_num)⟩

theorem tileRow_val (n : ℕ) (hn : n < 512) (p : Fin 1024) : (tileRow n p).val = (n / 64) * 1024 + p.val := by
  have := p.isLt
  show ((n / 64) * 1024 + p.val) % 8192 = _
  omega

theorem tileCol_val (n : ℕ) (q : Fin 2048) : (tileCol n q).val = ((n / 8) % 8) * 2048 + q.val := by
  have := q.isLt
  show (((n / 8) % 8) * 2048 + q.val) % 16384 = _
  omega

/-- Within a run of 8 points along the contracted axis the row tile does not change. -/
theorem tileRow_pred (n : ℕ) (h : ¬ n % 8 = 0) (p : Fin 1024) : tileRow (n - 1) p = tileRow n p := by
  apply Fin.ext
  show (((n - 1) / 64) * 1024 + p.val) % 8192 = ((n / 64) * 1024 + p.val) % 8192
  have : (n - 1) / 64 = n / 64 := by omega
  rw [this]

/-- Within a run of 8 points along the contracted axis the column tile does not change. -/
theorem tileCol_pred (n : ℕ) (h : ¬ n % 8 = 0) (q : Fin 2048) : tileCol (n - 1) q = tileCol n q := by
  apply Fin.ext
  show ((((n - 1) / 8) % 8) * 2048 + q.val) % 16384 = (((n / 8) % 8) * 2048 + q.val) % 16384
  have : (n - 1) / 8 = n / 8 := by omega
  rw [this]

end Cert.Affine

end
-- ==== Proof.TileBody.lean ====
/-
  What one grid point's body computes, read entry by entry over the extended reals.  The body keeps a 1024 × 2048
  accumulator tile: at the first point of a run along the contracted axis it fills the tile with zeros; at every point it
  adds to entry (p, q) the products of row p of the 1024 × 512 tile of `x` with row q of the 2048 × 512 tile of `w` (the
  change of float format before the product is the identity on the extended reals, and the product into a zero accumulator
  is the plain sum of the 512 products); at the last point it adds the bias row's entry q and that is the output tile.
-/
import proofs.«127328_j84902913507492_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileBody

open Cert.KernelIdeal Cert.KernelIdeal.Gen Idealize.ShloMosaic Idealize.ShloMosaic.ValueIdx

/-- The zero tile is zero at every entry. -/
theorem zeros_apply (j : S1024x2048.Idx) : (k0_pay1 (F := Ideal)) j = 0 := by
  unfold k0_pay1
  rw [shapeCast_self]
  exact Ideal.ofBits_zero_f32

/-- The product's left operand is read at the output entry's row … -/
theorem lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- … and at the contracted position; -/
theorem lhs_pos (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand at the output entry's column, which is a ROW of the `w` tile … -/
theorem rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- … and at the contracted position. -/
theorem rhs_pos (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of the two tiles into a zero accumulator, at entry (p, q): row p of the first against row q of the second. -/
theorem product_apply (a : FVec Ideal S1024x512 .bf16) (b : FVec Ideal S2048x512 .bf16) (p : Fin 1024) (q : Fin 2048) :
    matmul dot_S1024x512_S2048x512_S1024x2048_1_1_0_0_n_n none a b (constant (F := Ideal) S1024x2048 .f32 0x00000000#32) (ix2 p q)
      = ∑ kk : Fin 512, a (ix2 p kk) * b (ix2 q kk) := by
  refine (Ideal.matmul_constant_zero_apply dot_S1024x512_S2048x512_S1024x2048_1_1_0_0_n_n none a b (ix2 p q)).trans ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun ax => Fin.ext (by
    match ax with
    | ⟨0, _⟩ => exact lhs_row _ _
    | ⟨1, _⟩ => exact (lhs_pos _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun ax => Fin.ext (by
    match ax with
    | ⟨0, _⟩ => exact rhs_row _ _
    | ⟨1, _⟩ => exact (rhs_pos _ _).trans hk)
  rw [el, er]

/-- One point's update of the accumulator tile, at entry (p, q): what it held plus the 512 products of this slab. -/
theorem update_apply (xt : Vec Ideal S1024x512 .f32) (wt : Vec Ideal S2048x512 .f32) (acc : Vec Ideal S1024x2048 .f32)
    (p : Fin 1024) (q : Fin 2048) :
    k0_pay2 (F := Ideal) xt wt acc (ix2 p q) = acc (ix2 p q) + ∑ kk : Fin 512, xt (ix2 p kk) * wt (ix2 q kk) := by
  unfold k0_pay2
  rw [shapeCast_self]
  show acc (ix2 p q) + matmul dot_S1024x512_S2048x512_S1024x2048_1_1_0_0_n_n none (truncf .bf16 xt bitsLt_bf16_f32) (truncf .bf16 wt bitsLt_bf16_f32)
      (constant (F := Ideal) S1024x2048 .f32 0x00000000#32) (ix2 p q) = _
  rw [product_apply]
  rfl

/-- The last point's output tile, at entry (p, q): the accumulator plus the bias row's entry q. -/
theorem biased_apply (acc : Vec Ideal S1024x2048 .f32) (brow : Vec Ideal S1x2048 .f32) (p : Fin 1024) (q : Fin 2048) :
    k0_pay3 (F := Ideal) acc brow (ix2 p q) = acc (ix2 p q) + brow (ix2 (0 : Fin 1) q) := by
  unfold k0_pay3
  show acc (ix2 p q) + broadcastTo S1024x2048 (shapeCast S1x2048 brow shapeCasts_S1x2048_S1x2048) broadcasts_S1x2048_S1024x2048 (ix2 p q) = _
  rw [shapeCast_self, broadcastTo_1b_ab_apply]

end Cert.KernelIdeal.TileBody

end
-- ==== Proof.TileCases.lean ====
/-
  What each of the body's three control cases leaves behind, as values.  A run of 8 grid points shares one output tile.
  At its first point the accumulator tile is filled with zeros and then updated, so it ends as the update of the zero tile;
  at a middle point it ends as the update of what the point before left; at the last point likewise, and the output tile is
  that updated accumulator plus the bias row.  Each is the payload of the one store that covers the tile, its loads reading
  whole buffers (a load of the accumulator after a store to it in the same point reads what that store wrote).
-/
import proofs.«127328_j84902913507492_1_alg».proof.Proof.Gen.KernelIdeal.Frame
import Idealize.ShloMosaic.Lib.Pipeline.Value
import Idealize.ShloMosaic.Lib.Tactic

noncomputable section

namespace Cert.KernelIdeal.TileCases

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- First point of a run: the accumulator ends as the update of the zero tile. -/
theorem acc_first (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .f32) (x1 : Vec F S2048x512 .f32) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) origin]
  simp only [View.readAt_eq_ld, harg3.read_unread, harg4.read_unread, View.ld_unit_zero (S := S1024x512) origin,
    View.ld_unit_zero (S := S2048x512) origin, View.readCov_unit_zero (S := S1024x2048) _ origin]

/-- A middle point: the accumulator ends as the update of what it held. -/
theorem acc_middle (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .f32) (x1 : Vec F S2048x512 .f32) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread, View.ld_unit_zero (S := S1024x512) origin,
    View.ld_unit_zero (S := S2048x512) origin, View.ld_unit_zero (S := S1024x2048) origin]

/-- The last point: the accumulator ends as the update of what it held … -/
theorem acc_last (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S2048x512 .f32) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x512) origin,
    View.ld_unit_zero (S := S2048x512) origin, View.ld_unit_zero (S := S1024x2048) origin]

/-- … and the output tile is that updated accumulator plus the bias row. -/
theorem out_last (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S2048x512 .f32) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S1024x512) origin, View.ld_unit_zero (S := S2048x512) origin, View.ld_unit_zero (S := S1024x2048) origin,
    View.ld_unit_zero (S := S1x2048) origin, View.readCov_unit_zero (S := S1024x2048) _ origin]

end Cert.KernelIdeal.TileCases

end
-- ==== Proof.TileRun.lean ====
/-
  The kernel's result array, read off its run over the 8 · 8 · 8 grid.  Point `n` holds row tile `n / 64` of `x` (1024 rows),
  column tile `(n / 8) % 8` (2048 rows of `w`, as many bias entries) and slab `n % 8` of the contracted axis (512 positions).
  Along a run of 8 consecutive points the tiles stay and the slab advances, so the accumulator tile after point `n` holds, at
  entry (p, q), the contributions of slabs 0 … n % 8 to entry (row, column) of the product — by induction on the point.  At
  the run's last point all 8 slabs are in, which is the full contraction, the bias entry is added, and that tile is written
  to the result array; the 64 tiles written cover the array, so it ends holding the affine map of the three arguments.
-/
import proofs.«127328_j84902913507492_1_alg».proof.Proof.Gen.KernelIdeal.Value
import proofs.«127328_j84902913507492_1_alg».proof.Proof.Affine
import proofs.«127328_j84902913507492_1_alg».proof.Proof.TileBody
import proofs.«127328_j84902913507492_1_alg».proof.Proof.TileCases
import Idealize.ShloMosaic.Lib.Pipeline.Value
import Idealize.ShloMosaic.Lib.ValueLayout
import Idealize.ShloMosaic.Lib.StableHlo.Run

noncomputable section

open scoped BigOperators

namespace Cert.KernelIdeal.TileRun

open Cert.KernelIdeal Cert.KernelIdeal.Gen Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

/-- The three arrays the windows read, as the region finds them, and the three tiles a point holds. -/
abbrev xarr (c : Dev nD) : Vec Ideal S8192x4096 .f32 := V m c main_arg0
abbrev warr (c : Dev nD) : Vec Ideal S16384x4096 .f32 := V m c main_arg1
abbrev brow (c : Dev nD) : Vec Ideal S1x16384 .f32 := V m c main_v0
abbrev barr (c : Dev nD) : Vec Ideal S16384 .f32 := m ((c : Thread nD τ).loc main_arg2)
abbrev xtile (c : Dev nD) (t : Fin cfg0.N) : Vec Ideal S1024x512 .f32 := iblk m c 0 t
abbrev wtile (c : Dev nD) (t : Fin cfg0.N) : Vec Ideal S2048x512 .f32 := iblk m c 1 t
abbrev btile (c : Dev nD) (t : Fin cfg0.N) : Vec Ideal S1x2048 .f32 := iblk m c 2 t

/-- Which tile each window holds at point `t`: decided once over the 512 points. -/
theorem tile_index : ∀ t : Fin cfg0.N,
    win0_0.index t (0 : Fin 2) = t.val / 64 ∧ win0_0.index t (1 : Fin 2) = t.val % 8
    ∧ win0_1.index t (0 : Fin 2) = (t.val / 8) % 8 ∧ win0_1.index t (1 : Fin 2) = t.val % 8
    ∧ win0_2.index t (0 : Fin 2) = 0 ∧ win0_2.index t (1 : Fin 2) = (t.val / 8) % 8
    ∧ win0_3.index t (0 : Fin 2) = t.val / 64 ∧ win0_3.index t (1 : Fin 2) = (t.val / 8) % 8 :=
  (by decide +kernel : ∀ t : Fin grid0.N, _)

theorem lt_points (t : Fin cfg0.N) : t.val < 512 := lt_of_lt_of_eq t.isLt (show cfg0.N = 512 from N_0)

/-- Entry (p, kk) of the `x` tile at point `t` is `x` at the tile's row p and the slab's position kk. -/
theorem xtile_apply (c : Dev nD) (t : Fin cfg0.N) (p : Fin 1024) (kk : Fin 512) :
    xtile m c t (ix2 p kk) = xarr m c (ix2 (tileRow t.val p) (slabPos (t.val % 8) kk)) := by
  have hN := lt_points t
  obtain ⟨e0, e1, -⟩ := tile_index t
  show V m c main_arg0 (((cfg0.win 0).blk t).view.emb (ix2 p kk)) = V m c main_arg0 _
  refine congrArg (V m c main_arg0) (funext fun a => Fin.ext ?_)
  match a with
  | ⟨0, _⟩ =>
    show win0_0.index t (0 : Fin 2) * 1024 + 1 * p.val = (tileRow t.val p).val
    rw [e0, tileRow_val _ hN]; omega
  | ⟨1, _⟩ =>
    show win0_0.index t (1 : Fin 2) * 512 + 1 * kk.val = (slabPos (t.val % 8) kk).val
    rw [e1, slabPos_val _ (by omega)]; omega

/-- Entry (q, kk) of the `w` tile at point `t` is `w` at the tile's row q and the slab's position kk. -/
theorem wtile_apply (c : Dev nD) (t : Fin cfg0.N) (q : Fin 2048) (kk : Fin 512) :
    wtile m c t (ix2 q kk) = warr m c (ix2 (tileCol t.val q) (slabPos (t.val % 8) kk)) := by
  have hN := lt_points t
  obtain ⟨-, -, e2, e3, -⟩ := tile_index t
  show V m c main_arg1 (((cfg0.win 1).blk t).view.emb (ix2 q kk)) = V m c main_arg1 _
  refine congrArg (V m c main_arg1) (funext fun a => Fin.ext ?_)
  match a with
  | ⟨0, _⟩ =>
    show win0_1.index t (0 : Fin 2) * 2048 + 1 * q.val = (tileCol t.val q).val
    rw [e2, tileCol_val]; omega
  | ⟨1, _⟩ =>
    show win0_1.index t (1 : Fin 2) * 512 + 1 * kk.val = (slabPos (t.val % 8) kk).val
    rw [e3, slabPos_val _ (by omega)]; omega

/-- The bias laid out as one row: its entry (0, q) is the bias at q. -/
theorem brow_apply (c : Dev nD) (q : Fin 16384) : brow m c (ix2 (0 : Fin 1) q) = barr m c (ix1 q) := by
  have e : (V m c main_v0 : S1x16384.Idx → EReal)
      = shapeCast S1x16384 (m ((c : Thread nD τ).loc main_arg2)) shapeCasts_S16384_S1x16384 := by
    dsimp only [V, hostOps0]; after_results; rfl
  show (V m c main_v0 : S1x16384.Idx → EReal) (ix2 (0 : Fin 1) q) = _
  rw [e, shapeCast_a_1a_apply]

/-- Entry (0, q) of the bias tile at point `t` is the bias at the tile's column q. -/
theorem btile_apply (c : Dev nD) (t : Fin cfg0.N) (q : Fin 2048) :
    btile m c t (ix2 (0 : Fin 1) q) = barr m c (ix1 (tileCol t.val q)) := by
  obtain ⟨-, -, -, -, e4, e5, -⟩ := tile_index t
  rw [← brow_apply]
  show V m c main_v0 (((cfg0.win 2).blk t).view.emb (ix2 (0 : Fin 1) q)) = V m c main_v0 _
  refine congrArg (V m c main_v0) (funext fun a => Fin.ext ?_)
  match a with
  | ⟨0, _⟩ =>
    show win0_2.index t (0 : Fin 2) * 1 + 1 * 0 = 0
    rw [e4]
  | ⟨1, _⟩ =>
    show win0_2.index t (1 : Fin 2) * 2048 + 1 * q.val = (tileCol t.val q).val
    rw [e5, tileCol_val]; omega

/-- The 512 products a point adds to entry (p, q) are its slab's contribution to the entry's row and column. -/
theorem products_eq_slab (c : Dev nD) (t : Fin cfg0.N) (p : Fin 1024) (q : Fin 2048) :
    ∑ kk : Fin 512, xtile m c t (ix2 p kk) * wtile m c t (ix2 q kk)
      = slab (xarr m c) (warr m c) (tileRow t.val p) (tileCol t.val q) (t.val % 8) := by
  unfold slab
  exact Finset.sum_congr rfl fun kk _ => by rw [xtile_apply, wtile_apply]

/-- At the first point of a run the accumulator holds slab 0's contribution. -/
theorem acc_at_first (c : Dev nD) (t : Fin cfg0.N) (h0 : t.val % 8 = 0) (p : Fin 1024) (q : Fin 2048) :
    (outsAt0 m c t.val t.isLt).2 (ix2 p q)
      = ∑ kk : Fin 512, xtile m c t (ix2 p kk) * wtile m c t (ix2 q kk) := by
  have h1 : ¬t.val % 8 = 7 := by omega
  rw [outsAt0_A m c t h0 h1]
  dsimp only
  refine (congrFun (TileCases.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xtile m c t) (wtile m c t) (btile m c t)) (ix2 p q)).trans ?_
  rw [TileBody.update_apply, TileBody.zeros_apply, zero_add]

/-- At any later point of a run the accumulator holds what the point before left plus this point's 512 products. -/
theorem acc_step (c : Dev nD) (t : Fin cfg0.N) (h0 : ¬t.val % 8 = 0) (p : Fin 1024) (q : Fin 2048) :
    (outsAt0 m c t.val t.isLt).2 (ix2 p q)
      = (outsAt0 m c (t.val - 1) (Nat.lt_of_le_of_lt (Nat.sub_le _ _) t.isLt)).2 (ix2 p q)
        + ∑ kk : Fin 512, xtile m c t (ix2 p kk) * wtile m c t (ix2 q kk) := by
  by_cases h1 : t.val % 8 = 7
  · rw [outsAt0_C m c t h0 h1]
    dsimp only
    refine (congrFun (TileCases.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xtile m c t) (wtile m c t) (btile m c t) (outsAt0 m c (t.val - 1) (Nat.lt_of_le_of_lt (Nat.sub_le _ _) t.isLt)).2) (ix2 p q)).trans ?_
    exact TileBody.update_apply _ _ _ p q
  · rw [outsAt0_B m c t h0 h1]
    dsimp only
    refine (congrFun (TileCases.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xtile m c t) (wtile m c t) (btile m c t) (outsAt0 m c (t.val - 1) (Nat.lt_of_le_of_lt (Nat.sub_le _ _) t.isLt)).2) (ix2 p q)).trans ?_
    exact TileBody.update_apply _ _ _ p q

/-- THE ACCUMULATOR after point `n`: at entry (p, q), slabs 0 … n % 8 of the entry's row and column. -/
theorem acc_after (c : Dev nD) : ∀ (n : ℕ) (hn : n < cfg0.N) (p : Fin 1024) (q : Fin 2048),
    (outsAt0 m c n hn).2 (ix2 p q)
      = ∑ kb ∈ Finset.range (n % 8 + 1), slab (xarr m c) (warr m c) (tileRow n p) (tileCol n q) kb := by
  intro n
  induction n with
  | zero =>
    intro hn p q
    refine (acc_at_first m c ⟨0, hn⟩ rfl p q).trans ?_
    rw [products_eq_slab]
    exact (Finset.sum_range_one _).symm
  | succ n ih =>
    intro hn p q
    by_cases h0 : (n + 1) % 8 = 0
    · refine (acc_at_first m c ⟨n + 1, hn⟩ h0 p q).trans ?_
      rw [products_eq_slab]
      show slab _ _ (tileRow (n + 1) p) (tileCol (n + 1) q) ((n + 1) % 8) = _
      rw [h0]
      exact (Finset.sum_range_one _).symm
    · refine (acc_step m c ⟨n + 1, hn⟩ h0 p q).trans ?_
      rw [products_eq_slab]
      show (outsAt0 m c n _).2 (ix2 p q) + slab _ _ (tileRow (n + 1) p) (tileCol (n + 1) q) ((n + 1) % 8) = _
      rw [ih (Nat.lt_of_succ_lt hn) p q, show tileRow n p = tileRow (n + 1) p from tileRow_pred (n + 1) h0 p,
        show tileCol n q = tileCol (n + 1) q from tileCol_pred (n + 1) h0 q,
        show (n + 1) % 8 = n % 8 + 1 from by omega]
      exact (Finset.sum_range_succ _ _).symm

/-- THE OUTPUT TILE at the last point of a run: at entry (p, q), the affine map at the entry's row and column. -/
theorem out_at_last (c : Dev nD) (t : Fin cfg0.N) (h1 : t.val % 8 = 7) (p : Fin 1024) (q : Fin 2048) :
    (outsAt0 m c t.val t.isLt).1 (ix2 p q)
      = affine (xarr m c) (warr m c) (barr m c) (ix2 (tileRow t.val p) (tileCol t.val q)) := by
  have h0 : ¬t.val % 8 = 0 := by omega
  have hacc := (acc_step m c t h0 p q).symm.trans (acc_after m c t.val t.isLt p q)
  rw [outsAt0_C m c t h0 h1]
  dsimp only
  refine (congrFun (TileCases.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xtile m c t) (wtile m c t) (btile m c t) (outsAt0 m c (t.val - 1) (Nat.lt_of_le_of_lt (Nat.sub_le _ _) t.isLt)).2) (ix2 p q)).trans ?_
  rw [TileBody.biased_apply, TileBody.update_apply, hacc, h1, sum_slabs, btile_apply]
  rfl

/-- What the kernel's result array ends holding. -/
abbrev result (c : Dev nD) : Vec Ideal S8192x16384 .f32 := affine (xarr m c) (warr m c) (barr m c)

/-- What a point that writes back writes is its tile of `result`. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN := lt_points t
  obtain ⟨-, -, -, -, -, -, e6, e7⟩ := tile_index t
  rw [Value.flushed3]
  funext j
  have hj : (cfg0.win 3).xinj (grid0.coords t) j = ix2 (⟨(j 0).val, (j 0).isLt⟩ : Fin 1024) (⟨(j 1).val, (j 1).isLt⟩ : Fin 2048) :=
    funext fun a => Fin.ext (by match a with | ⟨0, _⟩ => rfl | ⟨1, _⟩ => rfl)
  show (outsAt0 m c t.val t.isLt).1 ((cfg0.win 3).xinj (grid0.coords t) j) = result m c (((cfg0.win 3).blk t).view.emb j)
  rw [hj, out_at_last m c t h1]
  refine congrArg (result m c) (funext fun a => Fin.ext ?_)
  match a with
  | ⟨0, _⟩ =>
    show (tileRow t.val ⟨(j 0).val, (j 0).isLt⟩).val = win0_3.index t (0 : Fin 2) * 1024 + 1 * (j 0).val
    rw [e6, tileRow_val _ hN]
    show t.val / 64 * 1024 + (j 0).val = t.val / 64 * 1024 + 1 * (j 0).val
    omega
  | ⟨1, _⟩ =>
    show (tileCol t.val ⟨(j 1).val, (j 1).isLt⟩).val = win0_3.index t (1 : Fin 2) * 2048 + 1 * (j 1).val
    rw [e7, tileCol_val]
    show t.val / 8 % 8 * 2048 + (j 1).val = t.val / 8 % 8 * 2048 + 1 * (j 1).val
    omega

/-- Every row tile and column tile is some point's at the end of a run. -/
theorem tile_onto : ∀ (bi bj : Fin 8), ∃ t : Fin cfg0.N, t.val % 8 = 7 ∧ t.val / 64 = bi.val ∧ (t.val / 8) % 8 = bj.val :=
  (by decide +kernel : ∀ (bi bj : Fin 8), ∃ t : Fin grid0.N, t.val % 8 = 7 ∧ t.val / 64 = bi.val ∧ (t.val / 8) % 8 = bj.val)

/-- The tiles written back cover the result array, so it ends holding `result`. -/
theorem final (c : Dev nD) : (dats m 0 c).arrAt 3 cfg0.N = result m c :=
  (dats m 0 c).arrAt_eq_of_cover 3 (result m c) (flushed_eq m c) fun i => by
    have hi0 : (i 0).val < 8192 := (i 0).isLt
    have hi1 : (i 1).val < 16384 := (i 1).isLt
    obtain ⟨t, h7, hr, hc⟩ := tile_onto ⟨(i 0).val / 1024, by omega⟩ ⟨(i 1).val / 2048, by omega⟩
    obtain ⟨-, -, -, -, -, -, e6, e7⟩ := tile_index t
    refine ⟨t, (flush0_3 t).mpr h7, ?_⟩
    show i ∈ ((View.whole main_v1).slice (win0_3.rect t)).set
    rw [View.set_slice_whole, Rect.mem_set_unit]
    intro a
    match a with
    | ⟨0, _⟩ =>
      show win0_3.index t (0 : Fin 2) * 1024 ≤ (i 0).val ∧ (i 0).val < win0_3.index t (0 : Fin 2) * 1024 + 1024
      rw [e6, hr]; dsimp only; omega
    | ⟨1, _⟩ =>
      show win0_3.index t (1 : Fin 2) * 2048 ≤ (i 1).val ∧ (i 1).val < win0_3.index t (1 : Fin 2) * 2048 + 2048
      rw [e7, hc]; dsimp only; omega

/-- The kernel's run, read: its result array ends at the affine map of its three arguments, which it leaves unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show affine (V m c main_arg0) (V m c main_arg1) _ = _
      rw [V_main_arg0, V_main_arg1])), (h c).2⟩)
    (Value.run_blocks m ρ)

end Cert.KernelIdeal.TileRun

end
-- ==== Proof.RefAffine.lean ====
/-
  The reference computes the affine map: `x` times the transpose of `w`, read at entry (r, q), is the sum over the 4096
  contracted positions of x[r, k] · w[q, k] (the transpose only swaps the two coordinates of `w`), and the bias, laid out as a
  row and repeated down the 8192 rows, contributes b[q].
-/
import proofs.«127328_j84902913507492_1_alg».proof.Proof.Gen.ReferenceIdeal.Read
import proofs.«127328_j84902913507492_1_alg».proof.Proof.Affine

noncomputable section

open scoped BigOperators

namespace Cert.ReferenceIdeal.RefAffine

open Cert.ReferenceIdeal Cert.ReferenceIdeal.Gen Idealize.ShloMosaic Idealize.ShloMosaic.ValueIdx

/-- The reference's result, as a function of its three arguments, is the affine map. -/
theorem reference_eq (x : FVec Ideal S8192x4096 .f32) (w : FVec Ideal S16384x4096 .f32) (b : FVec Ideal S16384 .f32) :
    Read.val_main_v4 (F := Ideal) x w b = Cert.Affine.affine x w b := by
  funext i
  have el : ∀ k : Fin 4096, Read.lidx_main_v1 i k = ix2 (i 0) k := fun k => funext fun a => Fin.ext (by
    match a with | ⟨0, _⟩ => rfl | ⟨1, _⟩ => rfl)
  have er : ∀ k : Fin 4096, Read.idx_main_v0 (Read.ridx_main_v1 i k) = ix2 (i 1) k := fun k => funext fun a => Fin.ext (by
    match a with | ⟨0, _⟩ => rfl | ⟨1, _⟩ => rfl)
  have eb : Read.idx_main_v2 (Read.idx_main_v3 i) = ix1 (i 1) := funext fun a => Fin.ext (by
    match a with | ⟨0, _⟩ => rfl)
  rw [Read.val_main_v4_apply, Read.val_main_v1_apply, Read.val_main_v3_apply, Read.val_main_v2_apply]
  simp only [Read.val_main_v0_apply, el, er, eb]
  rfl

end Cert.ReferenceIdeal.RefAffine

end
-- ==== Proof.lean ====
/-
  A linear layer  y = x · wᵀ + b  (x : 8192 × 4096, w : 16384 × 4096, b : 16384) computed tile by tile against the same map
  computed in one piece.

  The kernel walks an 8 × 8 × 8 grid: a row tile of 1024 rows of `x`, a column tile of 2048 rows of `w`, and, moving fastest,
  a slab of 512 of the 4096 contracted positions.  Along a run of 8 points it keeps a 1024 × 2048 accumulator: zeroed at the
  run's first point, increased at every point by the products of the point's slab, and at the run's last point written out
  with the bias added.  The reference transposes `w`, takes the full product, and adds the bias repeated down the rows.

  Over the extended reals a change of float format is the identity and every product and sum is exact, so both programs
  compute, at entry (r, q), the sum over all 4096 positions k of x[r, k] · w[q, k], plus b[q]: the kernel reaches that sum as
  0 + slab 0 + slab 1 + … + slab 7, and regrouping a finite sum needs only commutativity and associativity of the addition,
  which hold with the infinities included.  So the precondition that the inputs are finite is never opened.

  `Affine` states the map and the slab decomposition; `RefAffine` reads the reference as that map; `TileBody` reads the
  body's three stored values entry by entry, `TileCases` what each control case leaves behind, and `TileRun` carries the
  accumulator through the grid by induction on the point and assembles the result array from the tiles written back.
  The three frames are the programs' own runs; the idealization rewrote nothing, so `preserves` has nothing to state.
-/
import proofs.«127328_j84902913507492_1_alg».proof.Defs
import proofs.«127328_j84902913507492_1_alg».proof.Proof.Gen.Kernel
import proofs.«127328_j84902913507492_1_alg».proof.Proof.Gen.Kernel.Skeleton
import proofs.«127328_j84902913507492_1_alg».proof.Proof.Gen.Kernel.Launch
import proofs.«127328_j84902913507492_1_alg».proof.Proof.Gen.Kernel.Points
import proofs.«127328_j84902913507492_1_alg».proof.Proof.Gen.Kernel.Frame
import proofs.«127328_j84902913507492_1_alg».proof.Proof.Gen.KernelIdeal
import proofs.«127328_j84902913507492_1_alg».proof.Proof.Gen.KernelIdeal.Skeleton
import proofs.«127328_j84902913507492_1_alg».proof.Proof.Gen.KernelIdeal.Launch
import proofs.«127328_j84902913507492_1_alg».proof.Proof.Gen.KernelIdeal.Points
import proofs.«127328_j84902913507492_1_alg».proof.Proof.Gen.KernelIdeal.Frame
import proofs.«127328_j84902913507492_1_alg».proof.Proof.Gen.ReferenceIdeal
import proofs.«127328_j84902913507492_1_alg».proof.Proof.Gen.Pre_finite_inputs
import proofs.«127328_j84902913507492_1_alg».proof.Proof.Gen.KernelIdeal.Value
import proofs.«127328_j84902913507492_1_alg».proof.Proof.Gen.ReferenceIdeal.Run
import proofs.«127328_j84902913507492_1_alg».proof.Proof.Gen.ReferenceIdeal.Read
import proofs.«127328_j84902913507492_1_alg».proof.Proof.TileRun
import proofs.«127328_j84902913507492_1_alg».proof.Proof.RefAffine
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is five host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the affine map of the arguments they agree on. -/
theorem algebraic : Cert.algebraic_KernelIdeal_ReferenceIdeal := by
  intro m ρ m' ρ' _ hagree
  refine ⟨_, Cert.KernelIdeal.TileRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefAffine.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
